-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S24x524288 : Shape := ⟨2, ![24, 524288]⟩
abbrev S524288x48 : Shape := ⟨2, ![524288, 48]⟩
abbrev S48x48 : Shape := ⟨2, ![48, 48]⟩
abbrev S48x24 : Shape := ⟨2, ![48, 24]⟩
abbrev S48x1 : Shape := ⟨2, ![48, 1]⟩
abbrev S_ : Shape := ⟨0, ![]⟩

class Facts : Prop where
  bcast_S_S24x524288 : S_.BroadcastsInDim S24x524288 (![] : Fin 0 → Fin S24x524288.rank)
  reducesTo_S24x524288_S_d0_1 : S24x524288.ReducesTo [0, 1] S_
  h_S_ : 0 < S_.numel
  bcast_S_S524288x48 : S_.BroadcastsInDim S524288x48 (![] : Fin 0 → Fin S524288x48.rank)
  reducesTo_S524288x48_S_d0_1 : S524288x48.ReducesTo [0, 1] S_
  bcast_S_S48x48 : S_.BroadcastsInDim S48x48 (![] : Fin 0 → Fin S48x48.rank)
  reducesTo_S48x48_S_d0_1 : S48x48.ReducesTo [0, 1] S_
  bcast_S_S48x24 : S_.BroadcastsInDim S48x24 (![] : Fin 0 → Fin S48x24.rank)
  reducesTo_S48x24_S_d0_1 : S48x24.ReducesTo [0, 1] S_
  bcast_S_S48x1 : S_.BroadcastsInDim S48x1 (![] : Fin 0 → Fin S48x1.rank)
  reducesTo_S48x1_S_d0_1 : S48x1.ReducesTo [0, 1] S_

variable [Facts]

def fn_part2 {F : FTy → Type} [FloatOps F] (main_arg7 : FVec F S48x24 .f32) (main_v33 : IVec S_ 1) : IVec S_ 1 :=
  let main_v34 : FVec F S48x24 .f32 := Host.absf main_arg7
  let main_cst_12 : FVec F S_ .f32 := constant S_ .f32 0x7F800000#32
  let main_v35 : FVec F S48x24 .f32 := broadcastInDim S48x24 ![] bcast_S_S48x24 main_cst_12
  let main_v36 : IVec S48x24 1 := cmpf .olt main_v34 main_v35
  let main_c_13 : IVec S_ 1 := constantI S_ 1 1#1
  let main_v37 : IVec S_ 1 := (fun x v => Host.reduce IntOp.andi x v reducesTo_S48x24_S_d0_1 h_S_) main_v36 main_c_13
  let main_v38 : IVec S_ 1 := andi main_v33 main_v37
  main_v38

def fn_part1 {F : FTy → Type} [FloatOps F] (main_arg4 : FVec F S48x1 .f32) (main_arg5 : FVec F S48x1 .f32) (main_arg6 : FVec F S48x48 .f32) (main_arg7 : FVec F S48x24 .f32) (main_v13 : IVec S_ 1) (main_v16 : IVec S48x24 1) : IVec S_ 1 :=
  let main_c_5 : IVec S_ 1 := constantI S_ 1 1#1
  let main_v17 : IVec S_ 1 := (fun x v => Host.reduce IntOp.andi x v reducesTo_S48x24_S_d0_1 h_S_) main_v16 main_c_5
  let main_v18 : IVec S_ 1 := andi main_v13 main_v17
  let main_v19 : FVec F S48x1 .f32 := Host.absf main_arg4
  let main_cst_6 : FVec F S_ .f32 := constant S_ .f32 0x7F800000#32
  let main_v20 : FVec F S48x1 .f32 := broadcastInDim S48x1 ![] bcast_S_S48x1 main_cst_6
  let main_v21 : IVec S48x1 1 := cmpf .olt main_v19 main_v20
  let main_c_7 : IVec S_ 1 := constantI S_ 1 1#1
  let main_v22 : IVec S_ 1 := (fun x v => Host.reduce IntOp.andi x v reducesTo_S48x1_S_d0_1 h_S_) main_v21 main_c_7
  let main_v23 : IVec S_ 1 := andi main_v18 main_v22
  let main_v24 : FVec F S48x1 .f32 := Host.absf main_arg5
  let main_cst_8 : FVec F S_ .f32 := constant S_ .f32 0x7F800000#32
  let main_v25 : FVec F S48x1 .f32 := broadcastInDim S48x1 ![] bcast_S_S48x1 main_cst_8
  let main_v26 : IVec S48x1 1 := cmpf .olt main_v24 main_v25
  let main_c_9 : IVec S_ 1 := constantI S_ 1 1#1
  let main_v27 : IVec S_ 1 := (fun x v => Host.reduce IntOp.andi x v reducesTo_S48x1_S_d0_1 h_S_) main_v26 main_c_9
  let main_v28 : IVec S_ 1 := andi main_v23 main_v27
  let main_v29 : FVec F S48x48 .f32 := Host.absf main_arg6
  let main_cst_10 : FVec F S_ .f32 := constant S_ .f32 0x7F800000#32
  let main_v30 : FVec F S48x48 .f32 := broadcastInDim S48x48 ![] bcast_S_S48x48 main_cst_10
  let main_v31 : IVec S48x48 1 := cmpf .olt main_v29 main_v30
  let main_c_11 : IVec S_ 1 := constantI S_ 1 1#1
  let main_v32 : IVec S_ 1 := (fun x v => Host.reduce IntOp.andi x v reducesTo_S48x48_S_d0_1 h_S_) main_v31 main_c_11
  let main_v33 : IVec S_ 1 := andi main_v28 main_v32
  fn_part2 (F := F) main_arg7 main_v33

def fn {F : FTy → Type} [FloatOps F] (main_arg0 : FVec F S24x524288 .f32) (main_arg1 : FVec F S524288x48 .f32) (main_arg2 : FVec F S48x48 .f32) (main_arg3 : FVec F S48x24 .f32) (main_arg4 : FVec F S48x1 .f32) (main_arg5 : FVec F S48x1 .f32) (main_arg6 : FVec F S48x48 .f32) (main_arg7 : FVec F S48x24 .f32) : IVec S_ 1 :=
  let main_v0 : FVec F S24x524288 .f32 := Host.absf main_arg0
  let main_cst : FVec F S_ .f32 := constant S_ .f32 0x7F800000#32
  let main_v1 : FVec F S24x524288 .f32 := broadcastInDim S24x524288 ![] bcast_S_S24x524288 main_cst
  let main_v2 : IVec S24x524288 1 := cmpf .olt main_v0 main_v1
  let main_c : IVec S_ 1 := constantI S_ 1 1#1
  let main_v3 : IVec S_ 1 := (fun x v => Host.reduce IntOp.andi x v reducesTo_S24x524288_S_d0_1 h_S_) main_v2 main_c
  let main_v4 : FVec F S524288x48 .f32 := Host.absf main_arg1
  let main_cst_0 : FVec F S_ .f32 := constant S_ .f32 0x7F800000#32
  let main_v5 : FVec F S524288x48 .f32 := broadcastInDim S524288x48 ![] bcast_S_S524288x48 main_cst_0
  let main_v6 : IVec S524288x48 1 := cmpf .olt main_v4 main_v5
  let main_c_1 : IVec S_ 1 := constantI S_ 1 1#1
  let main_v7 : IVec S_ 1 := (fun x v => Host.reduce IntOp.andi x v reducesTo_S524288x48_S_d0_1 h_S_) main_v6 main_c_1
  let main_v8 : IVec S_ 1 := andi main_v3 main_v7
  let main_v9 : FVec F S48x48 .f32 := Host.absf main_arg2
  let main_cst_2 : FVec F S_ .f32 := constant S_ .f32 0x7F800000#32
  let main_v10 : FVec F S48x48 .f32 := broadcastInDim S48x48 ![] bcast_S_S48x48 main_cst_2
  let main_v11 : IVec S48x48 1 := cmpf .olt main_v9 main_v10
  let main_c_3 : IVec S_ 1 := constantI S_ 1 1#1
  let main_v12 : IVec S_ 1 := (fun x v => Host.reduce IntOp.andi x v reducesTo_S48x48_S_d0_1 h_S_) main_v11 main_c_3
  let main_v13 : IVec S_ 1 := andi main_v8 main_v12
  let main_v14 : FVec F S48x24 .f32 := Host.absf main_arg3
  let main_cst_4 : FVec F S_ .f32 := constant S_ .f32 0x7F800000#32
  let main_v15 : FVec F S48x24 .f32 := broadcastInDim S48x24 ![] bcast_S_S48x24 main_cst_4
  let main_v16 : IVec S48x24 1 := cmpf .olt main_v14 main_v15
  fn_part1 (F := F) main_arg4 main_arg5 main_arg6 main_arg7 main_v13 main_v16
-- ==== Kernel.lean ====
abbrev S24x524288 : Shape := ⟨2, ![24, 524288]⟩
abbrev S524288x48 : Shape := ⟨2, ![524288, 48]⟩
abbrev S48x48 : Shape := ⟨2, ![48, 48]⟩
abbrev S48x24 : Shape := ⟨2, ![48, 24]⟩
abbrev S48x1 : Shape := ⟨2, ![48, 1]⟩
abbrev S_ : Shape := ⟨0, ![]⟩
abbrev S1 : Shape := ⟨1, ![1]⟩
abbrev S24x24 : Shape := ⟨2, ![24, 24]⟩
abbrev S24x4096 : Shape := ⟨2, ![24, 4096]⟩
abbrev S4096x48 : Shape := ⟨2, ![4096, 48]⟩
abbrev S4096x24 : Shape := ⟨2, ![4096, 24]⟩
abbrev S24x48 : Shape := ⟨2, ![24, 48]⟩
abbrev S1x48 : Shape := ⟨2, ![1, 48]⟩

abbrev nBuf : Space → Nat
  | .hbm => 14
  | .vmem => 12
  | .smem => 0
  | _ => 0

abbrev bufTy : (tb : Table) → Fin (tcTables nBuf tb) → BufTy
  | .hbm, ⟨0, _⟩ => ⟨S24x524288, .f32⟩
  | .hbm, ⟨1, _⟩ => ⟨S524288x48, .f32⟩
  | .hbm, ⟨2, _⟩ => ⟨S48x48, .f32⟩
  | .hbm, ⟨3, _⟩ => ⟨S48x24, .f32⟩
  | .hbm, ⟨4, _⟩ => ⟨S48x1, .f32⟩
  | .hbm, ⟨5, _⟩ => ⟨S48x1, .f32⟩
  | .hbm, ⟨6, _⟩ => ⟨S48x48, .f32⟩
  | .hbm, ⟨7, _⟩ => ⟨S48x24, .f32⟩
  | .hbm, ⟨8, _⟩ => ⟨S_, .i32⟩
  | .hbm, ⟨9, _⟩ => ⟨S1, .i32⟩
  | .hbm, ⟨10, _⟩ => ⟨S_, .f32⟩
  | .hbm, ⟨11, _⟩ => ⟨S24x24, .f32⟩
  | .hbm, ⟨12, _⟩ => ⟨S48x24, .f32⟩
  | .hbm, ⟨13, _⟩ => ⟨S524288x48, .f32⟩
  | .local _ .vmem, ⟨0, _⟩ => ⟨S24x4096, .f32⟩
  | .local _ .vmem, ⟨1, _⟩ => ⟨S24x4096, .f32⟩
  | .local _ .vmem, ⟨2, _⟩ => ⟨S4096x48, .f32⟩
  | .local _ .vmem, ⟨3, _⟩ => ⟨S4096x48, .f32⟩
  | .local _ .vmem, ⟨4, _⟩ => ⟨S48x24, .f32⟩
  | .local _ .vmem, ⟨5, _⟩ => ⟨S48x48, .f32⟩
  | .local _ .vmem, ⟨6, _⟩ => ⟨S48x1, .f32⟩
  | .local _ .vmem, ⟨7, _⟩ => ⟨S48x24, .f32⟩
  | .local _ .vmem, ⟨8, _⟩ => ⟨S48x48, .f32⟩
  | .local _ .vmem, ⟨9, _⟩ => ⟨S48x1, .f32⟩
  | .local _ .vmem, ⟨10, _⟩ => ⟨S4096x48, .f32⟩
  | .local _ .vmem, ⟨11, _⟩ => ⟨S4096x48, .f32⟩
  | _, _ => ⟨S24x524288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S24x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x48 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S48x24 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S48x48 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S48x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S48x24 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S48x48 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S48x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4096x48 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bcast_S_S1 : S_.BroadcastsInDim S1 (![] : Fin 0 → Fin S1.rank)
  bcast_S_S24x24 : S_.BroadcastsInDim S24x24 (![] : Fin 0 → Fin S24x24.rank)
  inb_S24x4096_S24x4096_0_0 : ∀ a, (![0, 0] : Fin 2 → Nat) a + S24x4096.size a ≤ S24x4096.size a
  h_S24x4096 : 0 < S24x4096.numel
  inb_S4096x48_S4096x48_0_0 : ∀ a, (![0, 0] : Fin 2 → Nat) a + S4096x48.size a ≤ S4096x48.size a
  h_S4096x48 : 0 < S4096x48.numel
  transposes_S24x4096_p1_0_S4096x24 : S24x4096.Transposes [1, 0] S4096x24
  inb_S48x48_S48x48_0_0 : ∀ a, (![0, 0] : Fin 2 → Nat) a + S48x48.size a ≤ S48x48.size a
  h_S48x48 : 0 < S48x48.numel
  inb_S48x24_S48x24_0_0 : ∀ a, (![0, 0] : Fin 2 → Nat) a + S48x24.size a ≤ S48x24.size a
  h_S48x24 : 0 < S48x24.numel
  shapeCasts_S48x24_S48x24 : S48x24.ShapeCasts S48x24
  inb_S48x1_S48x1_0_0 : ∀ a, (![0, 0] : Fin 2 → Nat) a + S48x1.size a ≤ S48x1.size a
  h_S48x1 : 0 < S48x1.numel
  transposes_S48x48_p1_0_S48x48 : S48x48.Transposes [1, 0] S48x48
  transposes_S48x24_p1_0_S24x48 : S48x24.Transposes [1, 0] S24x48
  transposes_S48x1_p1_0_S1x48 : S48x1.Transposes [1, 0] S1x48
  broadcasts_S1x48_S4096x48 : S1x48.Broadcasts S4096x48
  scatter_S48x24_S1_S24x24_01_n_0_0_wf : ScatterDims.WF S48x24 S1 S24x24 [0, 1] [] [0] 0
  dot_S4096x48_S48x48_S4096x48_1_0_0_1_n_n_wf : DotDims.WF S4096x48 S48x48 S4096x48 [1] [0] [0] [1] [] []
  dot_S4096x24_S24x48_S4096x48_1_0_0_1_n_n_wf : DotDims.WF S4096x24 S24x48 S4096x48 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S24x4096.size a ≤ S24x524288.size a
  hwx0_0 : ∀ i : grid0.Coords, EltTy.bits .f32 = 32 ∨ (Rect.block (s := S24x524288) S24x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x48.size a ≤ S524288x48.size a
  hwx0_1 : ∀ i : grid0.Coords, EltTy.bits .f32 = 32 ∨ (Rect.block (s := S524288x48) S4096x48.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S48x24.size a ≤ S48x24.size a
  hwx0_2 : ∀ i : grid0.Coords, EltTy.bits .f32 = 32 ∨ (Rect.block (s := S48x24) S48x24.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S48x48.size a ≤ S48x48.size a
  hwx0_3 : ∀ i : grid0.Coords, EltTy.bits .f32 = 32 ∨ (Rect.block (s := S48x48) S48x48.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S48x1.size a ≤ S48x1.size a
  hwx0_4 : ∀ i : grid0.Coords, EltTy.bits .f32 = 32 ∨ (Rect.block (s := S48x1) S48x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S48x24.size a ≤ S48x24.size a
  hwx0_5 : ∀ i : grid0.Coords, EltTy.bits .f32 = 32 ∨ (Rect.block (s := S48x24) S48x24.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S48x48.size a ≤ S48x48.size a
  hwx0_6 : ∀ i : grid0.Coords, EltTy.bits .f32 = 32 ∨ (Rect.block (s := S48x48) S48x48.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S48x1.size a ≤ S48x1.size a
  hwx0_7 : ∀ i : grid0.Coords, EltTy.bits .f32 = 32 ∨ (Rect.block (s := S48x1) S48x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4096x48.size a ≤ S524288x48.size a
  hwx0_8 : ∀ i : grid0.Coords, EltTy.bits .f32 = 32 ∨ (Rect.block (s := S524288x48) S4096x48.size (cc0_transform_8 i) (hinb0_8 i)).WholeWords (EltTy.packing .f32)

variable [Facts₀]

def scatter_S48x24_S1_S24x24_01_n_0_0 : ScatterDims S48x24 S1 S24x24 where
  updateWindowDims := [0, 1]
  insertedWindowDims := []
  scatterDimsToOperandDims := [0]
  indexVectorDim := 0
  wf := scatter_S48x24_S1_S24x24_01_n_0_0_wf
def dot_S4096x48_S48x48_S4096x48_1_0_0_1_n_n : DotDims S4096x48 S48x48 S4096x48 where
  lhsContracting := [1]
  rhsContracting := [0]
  lhsNonContracting := [0]
  rhsNonContracting := [1]
  lhsBatch := []
  rhsBatch := []
  wf := dot_S4096x48_S48x48_S4096x48_1_0_0_1_n_n_wf
def dot_S4096x24_S24x48_S4096x48_1_0_0_1_n_n : DotDims S4096x24 S24x48 S4096x48 where
  lhsContracting := [1]
  rhsContracting := [0]
  lhsNonContracting := [0]
  rhsNonContracting := [1]
  lhsBatch := []
  rhsBatch := []
  wf := dot_S4096x24_S24x48_S4096x48_1_0_0_1_n_n_wf

abbrev win0_0 : Pipeline.Window sig grid0 :=
  Pipeline.Window.ofSpec (Memref.whole main_arg0) S24x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x48.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S48x24.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S48x48.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S48x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S48x24.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S48x48.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S48x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S4096x48.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S24x524288 : Shape := ⟨2, ![24, 524288]⟩
abbrev S524288x48 : Shape := ⟨2, ![524288, 48]⟩
abbrev S48x48 : Shape := ⟨2, ![48, 48]⟩
abbrev S48x24 : Shape := ⟨2, ![48, 24]⟩
abbrev S48x1 : Shape := ⟨2, ![48, 1]⟩
abbrev S48x524288 : Shape := ⟨2, ![48, 524288]⟩
abbrev S_ : Shape := ⟨0, ![]⟩
abbrev S1 : Shape := ⟨1, ![1]⟩
abbrev S24x24 : Shape := ⟨2, ![24, 24]⟩

abbrev nBuf : Space → Nat
  | .hbm => 53
  | .vmem => 0
  | .smem => 0
  | _ => 0

abbrev bufTy : (tb : Table) → Fin (tcTables nBuf tb) → BufTy
  | .hbm, ⟨0, _⟩ => ⟨S24x524288, .f32⟩
  | .hbm, ⟨1, _⟩ => ⟨S524288x48, .f32⟩
  | .hbm, ⟨2, _⟩ => ⟨S48x48, .f32⟩
  | .hbm, ⟨3, _⟩ => ⟨S48x24, .f32⟩
  | .hbm, ⟨4, _⟩ => ⟨S48x1, .f32⟩
  | .hbm, ⟨5, _⟩ => ⟨S48x1, .f32⟩
  | .hbm, ⟨6, _⟩ => ⟨S48x48, .f32⟩
  | .hbm, ⟨7, _⟩ => ⟨S48x24, .f32⟩
  | .hbm, ⟨8, _⟩ => ⟨S48x524288, .f32⟩
  | .hbm, ⟨9, _⟩ => ⟨S48x524288, .f32⟩
  | .hbm, ⟨10, _⟩ => ⟨S48x524288, .f32⟩
  | .hbm, ⟨11, _⟩ => ⟨S48x524288, .f32⟩
  | .hbm, ⟨12, _⟩ => ⟨S48x524288, .f32⟩
  | .hbm, ⟨13, _⟩ => ⟨S48x524288, .f32⟩
  | .hbm, ⟨14, _⟩ => ⟨S48x524288, .f32⟩
  | .hbm, ⟨15, _⟩ => ⟨S48x524288, .f32⟩
  | .hbm, ⟨16, _⟩ => ⟨S_, .f32⟩
  | .hbm, ⟨17, _⟩ => ⟨S48x524288, .f32⟩
  | .hbm, ⟨18, _⟩ => ⟨S48x524288, .f32⟩
  | .hbm, ⟨19, _⟩ => ⟨S_, .f32⟩
  | .hbm, ⟨20, _⟩ => ⟨S48x524288, .f32⟩
  | .hbm, ⟨21, _⟩ => ⟨S48x524288, .f32⟩
  | .hbm, ⟨22, _⟩ => ⟨S_, .f32⟩
  | .hbm, ⟨23, _⟩ => ⟨S48x524288, .f32⟩
  | .hbm, ⟨24, _⟩ => ⟨S48x524288, .f32⟩
  | .hbm, ⟨25, _⟩ => ⟨S_, .f32⟩
  | .hbm, ⟨26, _⟩ => ⟨S48x524288, .f32⟩
  | .hbm, ⟨27, _⟩ => ⟨S48x524288, .f32⟩
  | .hbm, ⟨28, _⟩ => ⟨S_, .i32⟩
  | .hbm, ⟨29, _⟩ => ⟨S1, .i32⟩
  | .hbm, ⟨30, _⟩ => ⟨S_, .f32⟩
  | .hbm, ⟨31, _⟩ => ⟨S24x24, .f32⟩
  | .hbm, ⟨32, _⟩ => ⟨S48x24, .f32⟩
  | .hbm, ⟨33, _⟩ => ⟨S_, .f32⟩
  | .hbm, ⟨34, _⟩ => ⟨S48x524288, .f32⟩
  | .hbm, ⟨35, _⟩ => ⟨S48x524288, .f32⟩
  | .hbm, ⟨36, _⟩ => ⟨S48x524288, .f32⟩
  | .hbm, ⟨37, _⟩ => ⟨S48x524288, .f32⟩
  | .hbm, ⟨38, _⟩ => ⟨S48x524288, .f32⟩
  | .hbm, ⟨39, _⟩ => ⟨S48x524288, .f32⟩
  | .hbm, ⟨40, _⟩ => ⟨S48x524288, .f32⟩
  | .hbm, ⟨41, _⟩ => ⟨S48x524288, .f32⟩
  | .hbm, ⟨42, _⟩ => ⟨S48x524288, .f32⟩
  | .hbm, ⟨43, _⟩ => ⟨S48x524288, .f32⟩
  | .hbm, ⟨44, _⟩ => ⟨S_, .f32⟩
  | .hbm, ⟨45, _⟩ => ⟨S48x524288, .f32⟩
  | .hbm, ⟨46, _⟩ => ⟨S48x524288, .f32⟩
  | .hbm, ⟨47, _⟩ => ⟨S_, .f32⟩
  | .hbm, ⟨48, _⟩ => ⟨S48x524288, .f32⟩
  | .hbm, ⟨49, _⟩ => ⟨S48x524288, .f32⟩
  | .hbm, ⟨50, _⟩ => ⟨S48x524288, .f32⟩
  | .hbm, ⟨51, _⟩ => ⟨S48x524288, .f32⟩
  | .hbm, ⟨52, _⟩ => ⟨S524288x48, .f32⟩
  | _, _ => ⟨S24x524288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_5 : Ref sig .tc := ⟨.hbm, 44, rfl⟩
abbrev main_v29 : Ref sig .tc := ⟨.hbm, 45, rfl⟩
abbrev main_v30 : Ref sig .tc := ⟨.hbm, 46, rfl⟩
abbrev main_cst_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩

abbrev nD : Nat := 1
abbrev τ : Topo := Topo.v7x

variable {F : FTy → Type} [FloatOps F]

class Facts₀ : Prop where
  transposes_S524288x48_S48x524288_1_0 : S524288x48.Transposes [1, 0] S48x524288
  bcast_S48x1_S48x524288_0_1 : S48x1.BroadcastsInDim S48x524288 (![0, 1] : Fin 2 → Fin S48x524288.rank)
  bcast_S_S48x524288 : S_.BroadcastsInDim S48x524288 (![] : Fin 0 → Fin S48x524288.rank)
  bcast_S_S1 : S_.BroadcastsInDim S1 (![] : Fin 0 → Fin S1.rank)
  bcast_S_S24x24 : S_.BroadcastsInDim S24x24 (![] : Fin 0 → Fin S24x24.rank)
  transposes_S48x524288_S524288x48_1_0 : S48x524288.Transposes [1, 0] S524288x48
  dot_S48x48_S48x524288_S48x524288_1_0_0_1_n_n_wf : DotDims.WF S48x48 S48x524288 S48x524288 [1] [0] [0] [1] [] []
  dot_S48x24_S24x524288_S48x524288_1_0_0_1_n_n_wf : DotDims.WF S48x24 S24x524288 S48x524288 [1] [0] [0] [1] [] []
  scatter_S48x24_S1_S24x24_01_n_0_0_wf : ScatterDims.WF S48x24 S1 S24x24 [0, 1] [] [0] 0

variable [Facts₀]

def dot_S48x48_S48x524288_S48x524288_1_0_0_1_n_n : DotDims S48x48 S48x524288 S48x524288 where
  lhsContracting := [1]
  rhsContracting := [0]
  lhsNonContracting := [0]
  rhsNonContracting := [1]
  lhsBatch := []
  rhsBatch := []
  wf := dot_S48x48_S48x524288_S48x524288_1_0_0_1_n_n_wf
def dot_S48x24_S24x524288_S48x524288_1_0_0_1_n_n : DotDims S48x24 S24x524288 S48x524288 where
  lhsContracting := [1]
  rhsContracting := [0]
  lhsNonContracting := [0]
  rhsNonContracting := [1]
  lhsBatch := []
  rhsBatch := []
  wf := dot_S48x24_S24x524288_S48x524288_1_0_0_1_n_n_wf
def scatter_S48x24_S1_S24x24_01_n_0_0 : ScatterDims S48x24 S1 S24x24 where
  updateWindowDims := [0, 1]
  insertedWindowDims := []
  scatterDimsToOperandDims := [0]
  indexVectorDim := 0
  wf := scatter_S48x24_S1_S24x24_01_n_0_0_wf

class Facts : Prop extends Facts₀ where

variable [Facts]
-- ==== Proof.Cell.lean ====
/-
  The gated recurrent cell, one hidden unit of one batch row at a time, on the extended reals.

  For a batch row with state `r : Fin 48 → EReal` and input `x : Fin 24 → EReal`, hidden unit `h` is updated from row `h`
  of each parameter matrix alone:

    pre(A, B, β)  =  (∑ₖ r k · A k  +  ∑ⱼ x j · B j)  +  β             an affine pre-activation
    z             =  lo + span · σ(pre(W_z h, P_z h, b_z h))            the timescale gate, σ the logistic function
    r' h          =  (1 − z) · r h  +  z · σ(pre(W h, Pm h, b_v h))     the convex update

  with `lo`, `span` and `1` the values of three fixed f32 words. Both programs compute exactly this per element; they
  differ in layout (batch-major blocks against the hidden-major whole array), in the order of the two factors inside the
  matrix products, and in how σ is spelt (one operation against `1 / (1 + e^(−y))`). The last two are settled here.
-/
import Idealize.ShloMosaic.PureOps.Ideal
import Idealize.ShloMosaic.PureOps.Ideal.Laws
import Idealize.ShloMosaic.Lib.ValueIdx

noncomputable section

namespace Cert.Cell

open Idealize.ShloMosaic Idealize.ShloMosaic.ValueIdx

/-- The lower end of the gate's range, the f32 nearest `0.005`. -/
abbrev lo : EReal := Ideal.ofBits .f32 0x3BA3D70A#32
/-- The width of the gate's range, the f32 nearest `0.995`. -/
abbrev span : EReal := Ideal.ofBits .f32 0x3F7EB852#32
/-- The f32 word of `1.0`, as the convex update spells its `1`. -/
abbrev unit : EReal := Ideal.ofBits .f32 0x3F800000#32

/-- The f32 word `0x3F800000` denotes the real number one. -/
theorem unit_eq_one : Ideal.ofBits .f32 0x3F800000#32 = 1 := by
  simp [Ideal.ofBits, Ideal.ieee, -EReal.coe_mul]; norm_num

/-- An affine pre-activation: the state row against a row of the recurrent matrix, plus the input column against a row of
    the input matrix, plus a bias. -/
def pre (r A : Fin 48 → EReal) (x B : Fin 24 → EReal) (β : EReal) : EReal :=
  (∑ k : Fin 48, r k * A k + ∑ j : Fin 24, x j * B j) + β

/-- The same with the factors of each product in the other order: multiplication of extended reals commutes. -/
theorem pre_comm (r A : Fin 48 → EReal) (x B : Fin 24 → EReal) (β : EReal) :
    (∑ k : Fin 48, A k * r k + ∑ j : Fin 24, B j * x j) + β = pre r A x B β := by
  unfold pre
  rw [Finset.sum_congr rfl fun k _ => mul_comm (A k) (r k), Finset.sum_congr rfl fun j _ => mul_comm (B j) (x j)]

/-- The timescale gate at a pre-activation. -/
def gate (y : EReal) : EReal := lo + span * Ideal.logistic y

/-- The updated state of one hidden unit: `rh` its old state, the first triple its gate's parameters, the second its
    candidate's. -/
def update (r : Fin 48 → EReal) (x : Fin 24 → EReal) (rh : EReal) (Wz : Fin 48 → EReal) (Pz : Fin 24 → EReal) (bz : EReal)
    (W : Fin 48 → EReal) (Pm : Fin 24 → EReal) (bv : EReal) : EReal :=
  (unit - gate (pre r Wz x Pz bz)) * rh + gate (pre r Wz x Pz bz) * Ideal.logistic (pre r W x Pm bv)

/-- The logistic function spelt with a quotient, the ones as f32 words: `1 / (1 + e^(−y))` is `σ y` on every extended real
    (at `−∞` the quotient is `1 / ∞ = 0`, at `+∞` it is `1 / 1`). -/
theorem quotient_eq_logistic (y : EReal) : Ideal.div unit (unit + Ideal.exp (-y)) = Ideal.logistic y := by
  unfold unit
  rw [unit_eq_one]
  rfl

/-- THE WHOLE RESULT, batch-major: element `(b, h)` is the update of hidden unit `h` of batch row `b`, from row `b` of the
    state `r : [524288, 48]`, column `b` of the input `x : [24, 524288]`, and row `h` of each parameter (`Pm` the candidate's
    input matrix, already masked). -/
def result (x : (⟨2, ![24, 524288]⟩ : Shape).Idx → EReal) (r : (⟨2, ![524288, 48]⟩ : Shape).Idx → EReal)
    (W : (⟨2, ![48, 48]⟩ : Shape).Idx → EReal) (Pm : (⟨2, ![48, 24]⟩ : Shape).Idx → EReal)
    (bv bz : (⟨2, ![48, 1]⟩ : Shape).Idx → EReal) (Wz : (⟨2, ![48, 48]⟩ : Shape).Idx → EReal)
    (Pz : (⟨2, ![48, 24]⟩ : Shape).Idx → EReal) : (⟨2, ![524288, 48]⟩ : Shape).Idx → EReal := fun i =>
  update (fun k => r (ix2 (i 0) k)) (fun j => x (ix2 j (i 0))) (r (ix2 (i 0) (i 1)))
    (fun k => Wz (ix2 (i 1) k)) (fun j => Pz (ix2 (i 1) j)) (bz (ix2 (i 1) 0))
    (fun k => W (ix2 (i 1) k)) (fun j => Pm (ix2 (i 1) j)) (bv (ix2 (i 1) 0))

end Cert.Cell

end
-- ==== Proof.RefCell.lean ====
/-
  The reference, read at one element, is the cell update of that element.

  The reference works hidden-major: it transposes the state to [48, 524288], forms each gate's pre-activation as
  `A @ rᵀ + B @ x + β` there, applies `1 / (1 + e^(−y))`, combines, and transposes back. Read at the result's index
  `(b, h)`, every stage is read at the hidden-major index `(h, b)`: a matrix product there is a sum over the shared
  axis of `A h k · r b k` (respectively `B h j · x j b`), a bias column is read at `(h, 0)`, and a scalar constant is
  itself. What is left is `Cell.update` of row `b` of the state, column `b` of the input and row `h` of each
  parameter, up to the order of the factors in each product and the spelling of the logistic function.

  The input matrix of the candidate is `P` with its lower 24 rows overwritten by zeros; that array is the same term in
  both programs and is kept as it stands (`masked`).
-/
import proofs.«129460_j90494960926876_1_alg».proof.Proof.Gen.ReferenceIdeal.Read
import proofs.«129460_j90494960926876_1_alg».proof.Proof.Cell

noncomputable section

namespace Cert.RefCell

open Cert.ReferenceIdeal Cert.ReferenceIdeal.Gen Cert.ReferenceIdeal.Read
open Idealize.ShloMosaic Idealize.ShloMosaic.ValueIdx

variable (x0 : (⟨S24x524288, .f32⟩ : BufTy).Contents (Elt Ideal)) (x1 : (⟨S524288x48, .f32⟩ : BufTy).Contents (Elt Ideal))
  (x2 : (⟨S48x48, .f32⟩ : BufTy).Contents (Elt Ideal)) (x3 : (⟨S48x24, .f32⟩ : BufTy).Contents (Elt Ideal))
  (x4 x5 : (⟨S48x1, .f32⟩ : BufTy).Contents (Elt Ideal)) (x6 : (⟨S48x48, .f32⟩ : BufTy).Contents (Elt Ideal))
  (x7 : (⟨S48x24, .f32⟩ : BufTy).Contents (Elt Ideal))

/-- The candidate's input matrix: `P` with rows 24 to 47 set to zero. -/
abbrev masked : (⟨S48x24, .f32⟩ : BufTy).Contents (Elt Ideal) := val_main_v18 (F := Ideal) x3

/-! ## Where each stage reads its operands -/

theorem back (b : Fin 524288) (h : Fin 48) : idx_main_v35 (ix2 b h) = ix2 h b :=
  funext fun a => Fin.ext (by match a with | ⟨0, _⟩ => rfl | ⟨1, _⟩ => rfl)
theorem state_at (b : Fin 524288) (h : Fin 48) : idx_main_v0 (ix2 h b) = ix2 b h :=
  funext fun a => Fin.ext (by match a with | ⟨0, _⟩ => rfl | ⟨1, _⟩ => rfl)

theorem gate_rec_l (b : Fin 524288) (h k : Fin 48) : lidx_main_v1 (ix2 h b) k = ix2 h k :=
  funext fun a => Fin.ext (by match a with | ⟨0, _⟩ => rfl | ⟨1, _⟩ => rfl)
theorem gate_rec_r (b : Fin 524288) (h k : Fin 48) : idx_main_v0 (ridx_main_v1 (ix2 h b) k) = ix2 b k :=
  funext fun a => Fin.ext (by match a with | ⟨0, _⟩ => rfl | ⟨1, _⟩ => rfl)
theorem gate_in_l (b : Fin 524288) (h : Fin 48) (j : Fin 24) : lidx_main_v2 (ix2 h b) j = ix2 h j :=
  funext fun a => Fin.ext (by match a with | ⟨0, _⟩ => rfl | ⟨1, _⟩ => rfl)
theorem gate_in_r (b : Fin 524288) (h : Fin 48) (j : Fin 24) : ridx_main_v2 (ix2 h b) j = ix2 j b :=
  funext fun a => Fin.ext (by match a with | ⟨0, _⟩ => rfl | ⟨1, _⟩ => rfl)
theorem gate_bias (b : Fin 524288) (h : Fin 48) : idx_main_v4 (ix2 h b) = ix2 h 0 :=
  funext fun a => Fin.ext (by match a with | ⟨0, _⟩ => rfl | ⟨1, _⟩ => rfl)

theorem cand_rec_l (b : Fin 524288) (h k : Fin 48) : lidx_main_v22 (ix2 h b) k = ix2 h k :=
  funext fun a => Fin.ext (by match a with | ⟨0, _⟩ => rfl | ⟨1, _⟩ => rfl)
theorem cand_rec_r (b : Fin 524288) (h k : Fin 48) : idx_main_v0 (ridx_main_v22 (ix2 h b) k) = ix2 b k :=
  funext fun a => Fin.ext (by match a with | ⟨0, _⟩ => rfl | ⟨1, _⟩ => rfl)
theorem cand_in_l (b : Fin 524288) (h : Fin 48) (j : Fin 24) : lidx_main_v23 (ix2 h b) j = ix2 h j :=
  funext fun a => Fin.ext (by match a with | ⟨0, _⟩ => rfl | ⟨1, _⟩ => rfl)
theorem cand_in_r (b : Fin 524288) (h : Fin 48) (j : Fin 24) : ridx_main_v23 (ix2 h b) j = ix2 j b :=
  funext fun a => Fin.ext (by match a with | ⟨0, _⟩ => rfl | ⟨1, _⟩ => rfl)
theorem cand_bias (b : Fin 524288) (h : Fin 48) : idx_main_v25 (ix2 h b) = ix2 h 0 :=
  funext fun a => Fin.ext (by match a with | ⟨0, _⟩ => rfl | ⟨1, _⟩ => rfl)

/-! ## The two pre-activations -/

/-- The gate's pre-activation at `(h, b)`: row `h` of `W_z` against state row `b`, row `h` of `P_z` against input column
    `b`, plus `b_z h`. -/
theorem gate_pre (b : Fin 524288) (h : Fin 48) :
    val_main_v5 (F := Ideal) x0 x1 x5 x6 x7 (ix2 h b)
      = Cell.pre (fun k => x1 (ix2 b k)) (fun k => x6 (ix2 h k)) (fun j => x0 (ix2 j b)) (fun j => x7 (ix2 h j)) (x5 (ix2 h 0)) := by
  rw [val_main_v5_apply, val_main_v3_apply, val_main_v1_apply, val_main_v2_apply, val_main_v4_apply]
  simp only [val_main_v0_apply, gate_rec_l, gate_rec_r, gate_in_l, gate_in_r, gate_bias]
  exact Cell.pre_comm _ _ _ _ _

/-- The candidate's pre-activation at `(h, b)`: row `h` of `W` against state row `b`, row `h` of the masked `P` against
    input column `b`, plus `b_v h`. -/
theorem cand_pre (b : Fin 524288) (h : Fin 48) :
    val_main_v26 (F := Ideal) x0 x1 x2 x3 x4 (ix2 h b)
      = Cell.pre (fun k => x1 (ix2 b k)) (fun k => x2 (ix2 h k)) (fun j => x0 (ix2 j b)) (fun j => masked x3 (ix2 h j)) (x4 (ix2 h 0)) := by
  rw [val_main_v26_apply, val_main_v24_apply, val_main_v22_apply, val_main_v23_apply, val_main_v25_apply]
  simp only [val_main_v0_apply, cand_rec_l, cand_rec_r, cand_in_l, cand_in_r, cand_bias]
  exact Cell.pre_comm _ _ _ _ _

/-! ## The gate, the candidate, the update -/

/-- The timescale gate at `(h, b)`. -/
theorem gate_at (b : Fin 524288) (h : Fin 48) :
    val_main_v15 (F := Ideal) x0 x1 x5 x6 x7 (ix2 h b)
      = Cell.gate (Cell.pre (fun k => x1 (ix2 b k)) (fun k => x6 (ix2 h k)) (fun j => x0 (ix2 j b)) (fun j => x7 (ix2 h j)) (x5 (ix2 h 0))) := by
  rw [val_main_v15_apply, val_main_v14_apply, val_main_cst_2_apply, val_main_v13_apply, val_main_v12_apply, val_main_cst_1_apply,
    val_main_v11_apply, val_main_v10_apply, val_main_cst_0_apply, val_main_v9_apply, val_main_v8_apply, val_main_cst_apply,
    val_main_v7_apply, val_main_v6_apply, gate_pre]
  unfold Cell.gate
  rw [← Cell.quotient_eq_logistic]
  rfl

/-- The candidate's logistic at `(h, b)`. -/
theorem cand_at (b : Fin 524288) (h : Fin 48) :
    val_main_v32 (F := Ideal) x0 x1 x2 x3 x4 (ix2 h b)
      = Ideal.logistic (Cell.pre (fun k => x1 (ix2 b k)) (fun k => x2 (ix2 h k)) (fun j => x0 (ix2 j b)) (fun j => masked x3 (ix2 h j)) (x4 (ix2 h 0))) := by
  rw [val_main_v32_apply, val_main_v31_apply, val_main_cst_6_apply, val_main_v30_apply, val_main_v29_apply, val_main_cst_5_apply,
    val_main_v28_apply, val_main_v27_apply, cand_pre]
  rw [← Cell.quotient_eq_logistic]
  rfl

/-- THE REFERENCE AT ONE ELEMENT: the result at `(b, h)` is the cell update of hidden unit `h` of batch row `b`. -/
theorem result_at (b : Fin 524288) (h : Fin 48) :
    val_main_v35 (F := Ideal) x0 x1 x2 x3 x4 x5 x6 x7 (ix2 b h)
      = Cell.update (fun k => x1 (ix2 b k)) (fun j => x0 (ix2 j b)) (x1 (ix2 b h))
          (fun k => x6 (ix2 h k)) (fun j => x7 (ix2 h j)) (x5 (ix2 h 0))
          (fun k => x2 (ix2 h k)) (fun j => masked x3 (ix2 h j)) (x4 (ix2 h 0)) := by
  rw [val_main_v35_apply, back, val_main_v34_apply, val_main_v33_apply, val_main_v21_apply, val_main_v20_apply,
    val_main_v19_apply, val_main_cst_4_apply, val_main_v0_apply, state_at, gate_at, cand_at]
  rfl

/-- THE REFERENCE'S RESULT ARRAY is the cell update of every element. -/
theorem result_eq :
    val_main_v35 (F := Ideal) x0 x1 x2 x3 x4 x5 x6 x7 = Cell.result x0 x1 x2 (masked x3) x4 x5 x6 x7 := by
  funext i
  obtain ⟨b, h, rfl⟩ : ∃ (b : Fin 524288) (h : Fin 48), i = ix2 b h := ⟨i 0, i 1, eq_ix2 i⟩
  exact result_at x0 x1 x2 x3 x4 x5 x6 x7 b h

end Cert.RefCell

end
-- ==== Proof.BlockCell.lean ====
/-
  The kernel's body, read at one element of its output block, is the cell update of that element.

  The body works batch-major on a tile of 4096 batch rows: with `s : [4096, 48]` the tile of the state and `u : [24, 4096]`
  the tile of the input, a gate's pre-activation is `s · Aᵀ + uᵀ · Bᵀ + βᵀ`, each product a block product into a zero
  accumulator, the bias column transposed to a row and repeated down the tile. Read at `(p, h)` — batch row `p` of the
  tile, hidden unit `h` — a block product is the sum over the shared axis of the operands' entries, a transposed matrix
  is the matrix at the swapped index, and the repeated row is the bias at `(h, 0)`. What is left is `Cell.update` of
  row `p` of the state tile, column `p` of the input tile and row `h` of each parameter.
-/
import proofs.«129460_j90494960926876_1_alg».proof.Proof.Gen.KernelIdeal.Skeleton
import proofs.«129460_j90494960926876_1_alg».proof.Proof.Cell
import Idealize.ShloMosaic.Lib.ValueIdx
import Idealize.ShloMosaic.Lib.ValueLayout
import Idealize.ShloMosaic.Lib.Pipeline.Value
import Idealize.ShloMosaic.PureOps.Ideal.Laws

noncomputable section

namespace Cert.BlockCell

open Cert.KernelIdeal Cert.KernelIdeal.Gen
open Idealize.ShloMosaic Idealize.ShloMosaic.ValueIdx

/-! ## The two block products at an index -/

theorem rec_lhs_0 (i : S4096x48.Idx) (q : dot_S4096x48_S48x48_S4096x48_1_0_0_1_n_n.contr.Idx) :
    (dot_S4096x48_S48x48_S4096x48_1_0_0_1_n_n.lhsIdx i q 0).val = (i 0).val := by
  unfold DotDims.lhsIdx
  rw [dif_neg (show ¬(0 : Fin S4096x48.rank) ∈ dot_S4096x48_S48x48_S4096x48_1_0_0_1_n_n.lhsBatch by decide), dif_pos (show (0 : Fin S4096x48.rank) ∈ dot_S4096x48_S48x48_S4096x48_1_0_0_1_n_n.lhsNonContracting by decide)]
  rfl
theorem rec_lhs_1 (i : S4096x48.Idx) (q : dot_S4096x48_S48x48_S4096x48_1_0_0_1_n_n.contr.Idx) :
    (dot_S4096x48_S48x48_S4096x48_1_0_0_1_n_n.lhsIdx i q 1).val = (q ⟨0, by decide⟩).val :=
  dot_S4096x48_S48x48_S4096x48_1_0_0_1_n_n.lhsIdx_val_of_single rfl i q
theorem rec_rhs_0 (i : S4096x48.Idx) (q : dot_S4096x48_S48x48_S4096x48_1_0_0_1_n_n.contr.Idx) :
    (dot_S4096x48_S48x48_S4096x48_1_0_0_1_n_n.rhsIdx i q 0).val = (q ⟨0, by decide⟩).val :=
  dot_S4096x48_S48x48_S4096x48_1_0_0_1_n_n.rhsIdx_val_of_single rfl i q
theorem rec_rhs_1 (i : S4096x48.Idx) (q : dot_S4096x48_S48x48_S4096x48_1_0_0_1_n_n.contr.Idx) :
    (dot_S4096x48_S48x48_S4096x48_1_0_0_1_n_n.rhsIdx i q 1).val = (i 1).val := by
  unfold DotDims.rhsIdx
  rw [dif_neg (show ¬(1 : Fin S48x48.rank) ∈ dot_S4096x48_S48x48_S4096x48_1_0_0_1_n_n.rhsBatch by decide), dif_pos (show (1 : Fin S48x48.rank) ∈ dot_S4096x48_S48x48_S4096x48_1_0_0_1_n_n.rhsNonContracting by decide)]
  rfl

/-- The state tile against a 48 × 48 matrix, into zero: at `(p, h)` the sum over `k` of `l p k · r k h`. -/
theorem rec_product (l : FVec Ideal S4096x48 .f32) (r : FVec Ideal S48x48 .f32) (p : Fin 4096) (h : Fin 48) :
    matmul dot_S4096x48_S48x48_S4096x48_1_0_0_1_n_n none l r (constant (F := Ideal) S4096x48 .f32 0x00000000#32) (ix2 p h)
      = ∑ k : Fin 48, l (ix2 p k) * r (ix2 k h) := by
  simp only [matmul]
  rw [Ideal.matmul_constant_zero_apply, ← Equiv.sum_comp (contrEquiv1 dot_S4096x48_S48x48_S4096x48_1_0_0_1_n_n 48 rfl rfl).symm]
  refine Finset.sum_congr rfl fun k _ => ?_
  have hk := contrEquiv1_symm_val dot_S4096x48_S48x48_S4096x48_1_0_0_1_n_n 48 rfl rfl k
  have el : dot_S4096x48_S48x48_S4096x48_1_0_0_1_n_n.lhsIdx (ix2 p h) ((contrEquiv1 dot_S4096x48_S48x48_S4096x48_1_0_0_1_n_n 48 rfl rfl).symm k) = ix2 p k := funext fun a => Fin.ext (by
    match a with
    | ⟨0, _⟩ => exact rec_lhs_0 _ _
    | ⟨1, _⟩ => exact (rec_lhs_1 _ _).trans hk)
  have er : dot_S4096x48_S48x48_S4096x48_1_0_0_1_n_n.rhsIdx (ix2 p h) ((contrEquiv1 dot_S4096x48_S48x48_S4096x48_1_0_0_1_n_n 48 rfl rfl).symm k) = ix2 k h := funext fun a => Fin.ext (by
    match a with
    | ⟨0, _⟩ => exact (rec_rhs_0 _ _).trans hk
    | ⟨1, _⟩ => exact rec_rhs_1 _ _)
  rw [el, er]

theorem in_lhs_0 (i : S4096x48.Idx) (q : dot_S4096x24_S24x48_S4096x48_1_0_0_1_n_n.contr.Idx) :
    (dot_S4096x24_S24x48_S4096x48_1_0_0_1_n_n.lhsIdx i q 0).val = (i 0).val := by
  unfold DotDims.lhsIdx
  rw [dif_neg (show ¬(0 : Fin S4096x24.rank) ∈ dot_S4096x24_S24x48_S4096x48_1_0_0_1_n_n.lhsBatch by decide), dif_pos (show (0 : Fin S4096x24.rank) ∈ dot_S4096x24_S24x48_S4096x48_1_0_0_1_n_n.lhsNonContracting by decide)]
  rfl
theorem in_lhs_1 (i : S4096x48.Idx) (q : dot_S4096x24_S24x48_S4096x48_1_0_0_1_n_n.contr.Idx) :
    (dot_S4096x24_S24x48_S4096x48_1_0_0_1_n_n.lhsIdx i q 1).val = (q ⟨0, by decide⟩).val :=
  dot_S4096x24_S24x48_S4096x48_1_0_0_1_n_n.lhsIdx_val_of_single rfl i q
theorem in_rhs_0 (i : S4096x48.Idx) (q : dot_S4096x24_S24x48_S4096x48_1_0_0_1_n_n.contr.Idx) :
    (dot_S4096x24_S24x48_S4096x48_1_0_0_1_n_n.rhsIdx i q 0).val = (q ⟨0, by decide⟩).val :=
  dot_S4096x24_S24x48_S4096x48_1_0_0_1_n_n.rhsIdx_val_of_single rfl i q
theorem in_rhs_1 (i : S4096x48.Idx) (q : dot_S4096x24_S24x48_S4096x48_1_0_0_1_n_n.contr.Idx) :
    (dot_S4096x24_S24x48_S4096x48_1_0_0_1_n_n.rhsIdx i q 1).val = (i 1).val := by
  unfold DotDims.rhsIdx
  rw [dif_neg (show ¬(1 : Fin S24x48.rank) ∈ dot_S4096x24_S24x48_S4096x48_1_0_0_1_n_n.rhsBatch by decide), dif_pos (show (1 : Fin S24x48.rank) ∈ dot_S4096x24_S24x48_S4096x48_1_0_0_1_n_n.rhsNonContracting by decide)]
  rfl

/-- The transposed input tile against a 24 × 48 matrix, into zero: at `(p, h)` the sum over `j` of `l p j · r j h`. -/
theorem in_product (l : FVec Ideal S4096x24 .f32) (r : FVec Ideal S24x48 .f32) (p : Fin 4096) (h : Fin 48) :
    matmul dot_S4096x24_S24x48_S4096x48_1_0_0_1_n_n none l r (constant (F := Ideal) S4096x48 .f32 0x00000000#32) (ix2 p h)
      = ∑ j : Fin 24, l (ix2 p j) * r (ix2 j h) := by
  simp only [matmul]
  rw [Ideal.matmul_constant_zero_apply, ← Equiv.sum_comp (contrEquiv1 dot_S4096x24_S24x48_S4096x48_1_0_0_1_n_n 24 rfl rfl).symm]
  refine Finset.sum_congr rfl fun j _ => ?_
  have hj := contrEquiv1_symm_val dot_S4096x24_S24x48_S4096x48_1_0_0_1_n_n 24 rfl rfl j
  have el : dot_S4096x24_S24x48_S4096x48_1_0_0_1_n_n.lhsIdx (ix2 p h) ((contrEquiv1 dot_S4096x24_S24x48_S4096x48_1_0_0_1_n_n 24 rfl rfl).symm j) = ix2 p j := funext fun a => Fin.ext (by
    match a with
    | ⟨0, _⟩ => exact in_lhs_0 _ _
    | ⟨1, _⟩ => exact (in_lhs_1 _ _).trans hj)
  have er : dot_S4096x24_S24x48_S4096x48_1_0_0_1_n_n.rhsIdx (ix2 p h) ((contrEquiv1 dot_S4096x24_S24x48_S4096x48_1_0_0_1_n_n 24 rfl rfl).symm j) = ix2 j h := funext fun a => Fin.ext (by
    match a with
    | ⟨0, _⟩ => exact (in_rhs_0 _ _).trans hj
    | ⟨1, _⟩ => exact in_rhs_1 _ _)
  rw [el, er]

/-! ## One pre-activation of the tile -/

/-- `s · Aᵀ + uᵀ · Bᵀ + βᵀ` at `(p, h)`: row `p` of the state tile against row `h` of `A`, column `p` of the input tile
    against row `h` of `B`, plus `β h`. -/
theorem pre_at (u : FVec Ideal S24x4096 .f32) (s : FVec Ideal S4096x48 .f32) (A : FVec Ideal S48x48 .f32) (B : FVec Ideal S48x24 .f32)
    (β : FVec Ideal S48x1 .f32) (p : Fin 4096) (h : Fin 48) :
    addf (addf (matmul dot_S4096x48_S48x48_S4096x48_1_0_0_1_n_n none s (transpose S48x48 [1, 0] A transposes_S48x48_p1_0_S48x48) (constant S4096x48 .f32 0x00000000#32))
        (matmul dot_S4096x24_S24x48_S4096x48_1_0_0_1_n_n none (transpose S4096x24 [1, 0] u transposes_S24x4096_p1_0_S4096x24) (transpose S24x48 [1, 0] B transposes_S48x24_p1_0_S24x48) (constant S4096x48 .f32 0x00000000#32)))
      (broadcastTo S4096x48 (transpose S1x48 [1, 0] β transposes_S48x1_p1_0_S1x48) broadcasts_S1x48_S4096x48) (ix2 p h)
      = Cell.pre (fun k => s (ix2 p k)) (fun k => A (ix2 h k)) (fun j => u (ix2 j p)) (fun j => B (ix2 h j)) (β (ix2 h 0)) := by
  rw [addf_apply, addf_apply, rec_product, in_product, broadcastTo_1b_ab_apply, transpose_ix2_apply]
  unfold Cell.pre
  refine congrArg₂ (· + ·) (congrArg₂ (· + ·) (Finset.sum_congr rfl fun k _ => ?_) (Finset.sum_congr rfl fun j _ => ?_)) rfl
  · rw [transpose_ix2_apply]
  · rw [transpose_ix2_apply, transpose_ix2_apply]

/-! ## The body's values -/

variable (x0 : FVec Ideal S24x4096 .f32) (x1 : FVec Ideal S4096x48 .f32) (x2 : FVec Ideal S48x24 .f32) (x3 : FVec Ideal S48x48 .f32)
  (x4 : FVec Ideal S48x1 .f32) (x5 : FVec Ideal S48x24 .f32) (x6 : FVec Ideal S48x48 .f32) (x7 : FVec Ideal S48x1 .f32)

/-- The gate the body computes, at `(p, h)`: from the tile's row `p`, column `p` and row `h` of `W_z`, `P_z`, `b_z`. -/
theorem gate_at (p : Fin 4096) (h : Fin 48) :
    k0_pay3 (F := Ideal) x0 x1 x6 x5 x7 (ix2 p h)
      = Cell.gate (Cell.pre (fun k => x1 (ix2 p k)) (fun k => x6 (ix2 h k)) (fun j => x0 (ix2 j p)) (fun j => x5 (ix2 h j)) (x7 (ix2 h 0))) := by
  unfold k0_pay3 k0_pay2
  exact congrArg (fun y => Cell.lo + Cell.span * Ideal.logistic y) (pre_at x0 x1 x6 x5 x7 p h)

/-- The candidate's logistic the body computes, at `(p, h)`: the masked input matrix comes through a shape cast to its
    own shape, which changes nothing. -/
theorem cand_at (p : Fin 4096) (h : Fin 48) :
    logistic (F := Ideal) (addf (addf (matmul dot_S4096x48_S48x48_S4096x48_1_0_0_1_n_n none x1 (transpose S48x48 [1, 0] x3 transposes_S48x48_p1_0_S48x48) (constant (F := Ideal) S4096x48 .f32 0x00000000#32))
        (matmul dot_S4096x24_S24x48_S4096x48_1_0_0_1_n_n none (transpose S4096x24 [1, 0] x0 transposes_S24x4096_p1_0_S4096x24) (transpose S24x48 [1, 0] (shapeCast S48x24 x2 shapeCasts_S48x24_S48x24) transposes_S48x24_p1_0_S24x48) (constant (F := Ideal) S4096x48 .f32 0x00000000#32)))
      (broadcastTo S4096x48 (transpose S1x48 [1, 0] x4 transposes_S48x1_p1_0_S1x48) broadcasts_S1x48_S4096x48)) (ix2 p h)
      = Ideal.logistic (Cell.pre (fun k => x1 (ix2 p k)) (fun k => x3 (ix2 h k)) (fun j => x0 (ix2 j p)) (fun j => x2 (ix2 h j)) (x4 (ix2 h 0))) := by
  rw [shapeCast_self]
  exact congrArg Ideal.logistic (pre_at x0 x1 x3 x2 x4 p h)

/-- THE BODY AT ONE ELEMENT: what it stores at `(p, h)` of the output tile is the cell update of hidden unit `h` of the
    tile's batch row `p`. -/
theorem stored_at (p : Fin 4096) (h : Fin 48) :
    k0_pay1 (k0_pay4 (F := Ideal) x0 x1 x6 x5 x7) (k0_pay5 (F := Ideal) x0 x1 x3 x2 x4 x6 x5 x7) (ix2 p h)
      = Cell.update (fun k => x1 (ix2 p k)) (fun j => x0 (ix2 j p)) (x1 (ix2 p h))
          (fun k => x6 (ix2 h k)) (fun j => x5 (ix2 h j)) (x7 (ix2 h 0))
          (fun k => x3 (ix2 h k)) (fun j => x2 (ix2 h j)) (x4 (ix2 h 0)) := by
  unfold k0_pay1 k0_pay4 k0_pay5 k0_pay2 Cell.update
  refine congrArg₂ (· + ·) (congrArg (fun z => (Cell.unit - z) * x1 (ix2 p h)) (gate_at x0 x1 x5 x6 x7 p h)) ?_
  exact congrArg₂ (· * ·) (gate_at x0 x1 x5 x6 x7 p h) (cand_at x0 x1 x2 x3 x4 p h)

end Cert.BlockCell

end
-- ==== Proof.KernelValue.lean ====
/-
  The kernel's output array after the run is the cell update of every element.

  The grid has 128 points; point `t` is handed rows `4096 t … 4096 t + 4095` of the state and of the output, columns
  `4096 t … 4096 t + 4095` of the input, and each parameter matrix whole. So batch row `p` of point `t`'s tile is
  batch row `4096 t + p` of the arrays, and what the body stores at `(p, h)` of its tile (the cell update, by
  `BlockCell.stored_at`) is the cell update of element `(4096 t + p, h)`. The 128 output tiles partition the 524288
  rows — row `b` lies in tile `b / 4096` —, so the array ends as that one function everywhere.
-/
import proofs.«129460_j90494960926876_1_alg».proof.Proof.Gen.KernelIdeal.Value
import proofs.«129460_j90494960926876_1_alg».proof.Proof.BlockCell

set_option maxRecDepth 16384

noncomputable section

namespace Cert.KernelValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- Which block each window is on at point `t`: the input's column block `t`, the state's and the output's row block `t`,
    every parameter's only block. -/
theorem block_index : ∀ t : Fin cfg0.N,
    win0_0.index t (0 : Fin 2) = 0 ∧ win0_0.index t (1 : Fin 2) = t.val
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

/-- Batch row `p` of point `t`'s tile, as a row of the arrays. -/
def row (t : Fin cfg0.N) (p : Fin 4096) : Fin 524288 :=
  ⟨t.val * 4096 + p.val, by have ht : t.val < 128 := t.isLt; have hp := p.isLt; omega⟩

/-- The result array as one function of the arrays the region finds: the cell update of every element. -/
abbrev whole (c : Dev nD) : S524288x48.Idx → EReal :=
  Cell.result (V m c main_arg0) (V m c main_arg1) (V m c main_arg2) (V m c main_v2) (V m c main_arg4) (V m c main_arg5)
    (V m c main_arg6) (V m c main_arg7)

/-! ## Each window's tile, read at an index -/

theorem input_tile (c : Dev nD) (t : Fin cfg0.N) (p : Fin 4096) (j : Fin 24) :
    iblk m c 0 t (ix2 j p) = V m c main_arg0 (ix2 j (row t p)) := by
  show V m c main_arg0 (((cfg0.win 0).blk t).view.emb (ix2 j p)) = _
  have e : ((cfg0.win 0).blk t).view.emb (ix2 j p) = ix2 j (row t p) := by
    obtain ⟨e0, e1, -⟩ := block_index t
    funext a; apply Fin.ext
    match a with
    | ⟨0, _⟩ => show win0_0.index t (0 : Fin 2) * 24 + 1 * j.val = j.val; omega
    | ⟨1, _⟩ => show win0_0.index t (1 : Fin 2) * 4096 + 1 * p.val = t.val * 4096 + p.val; omega
  rw [e]

theorem state_tile (c : Dev nD) (t : Fin cfg0.N) (p : Fin 4096) (k : Fin 48) :
    iblk m c 1 t (ix2 p k) = V m c main_arg1 (ix2 (row t p) k) := by
  show V m c main_arg1 (((cfg0.win 1).blk t).view.emb (ix2 p k)) = _
  have e : ((cfg0.win 1).blk t).view.emb (ix2 p k) = ix2 (row t p) k := by
    obtain ⟨-, -, e0, e1, -⟩ := block_index t
    funext a; apply Fin.ext
    match a with
    | ⟨0, _⟩ => show win0_1.index t (0 : Fin 2) * 4096 + 1 * p.val = t.val * 4096 + p.val; omega
    | ⟨1, _⟩ => show win0_1.index t (1 : Fin 2) * 48 + 1 * k.val = k.val; omega
  rw [e]

theorem masked_tile (c : Dev nD) (t : Fin cfg0.N) (h : Fin 48) (j : Fin 24) :
    iblk m c 2 t (ix2 h j) = V m c main_v2 (ix2 h j) := by
  show V m c main_v2 (((cfg0.win 2).blk t).view.emb (ix2 h j)) = _
  have e : ((cfg0.win 2).blk t).view.emb (ix2 h j) = ix2 h j := by
    obtain ⟨-, -, -, -, e0, e1, -⟩ := block_index t
    funext a; apply Fin.ext
    match a with
    | ⟨0, _⟩ => show win0_2.index t (0 : Fin 2) * 48 + 1 * h.val = h.val; omega
    | ⟨1, _⟩ => show win0_2.index t (1 : Fin 2) * 24 + 1 * j.val = j.val; omega
  rw [e]

theorem cand_rec_tile (c : Dev nD) (t : Fin cfg0.N) (h k : Fin 48) :
    iblk m c 3 t (ix2 h k) = V m c main_arg2 (ix2 h k) := by
  show V m c main_arg2 (((cfg0.win 3).blk t).view.emb (ix2 h k)) = _
  have e : ((cfg0.win 3).blk t).view.emb (ix2 h k) = ix2 h k := by
    obtain ⟨-, -, -, -, -, -, e0, e1, -⟩ := block_index t
    funext a; apply Fin.ext
    match a with
    | ⟨0, _⟩ => show win0_3.index t (0 : Fin 2) * 48 + 1 * h.val = h.val; omega
    | ⟨1, _⟩ => show win0_3.index t (1 : Fin 2) * 48 + 1 * k.val = k.val; omega
  rw [e]

theorem cand_bias_tile (c : Dev nD) (t : Fin cfg0.N) (h : Fin 48) :
    iblk m c 4 t (ix2 h (0 : Fin 1)) = V m c main_arg4 (ix2 h (0 : Fin 1)) := by
  show V m c main_arg4 (((cfg0.win 4).blk t).view.emb (ix2 h (0 : Fin 1))) = _
  have e : ((cfg0.win 4).blk t).view.emb (ix2 h (0 : Fin 1)) = ix2 h (0 : Fin 1) := by
    obtain ⟨-, -, -, -, -, -, -, -, e0, e1, -⟩ := block_index t
    funext a; apply Fin.ext
    match a with
    | ⟨0, _⟩ => show win0_4.index t (0 : Fin 2) * 48 + 1 * h.val = h.val; omega
    | ⟨1, _⟩ => show win0_4.index t (1 : Fin 2) * 1 + 1 * 0 = 0; omega
  rw [e]

theorem gate_in_tile (c : Dev nD) (t : Fin cfg0.N) (h : Fin 48) (j : Fin 24) :
    iblk m c 5 t (ix2 h j) = V m c main_arg7 (ix2 h j) := by
  show V m c main_arg7 (((cfg0.win 5).blk t).view.emb (ix2 h j)) = _
  have e : ((cfg0.win 5).blk t).view.emb (ix2 h j) = ix2 h j := by
    obtain ⟨-, -, -, -, -, -, -, -, -, -, e0, e1, -⟩ := block_index t
    funext a; apply Fin.ext
    match a with
    | ⟨0, _⟩ => show win0_5.index t (0 : Fin 2) * 48 + 1 * h.val = h.val; omega
    | ⟨1, _⟩ => show win0_5.index t (1 : Fin 2) * 24 + 1 * j.val = j.val; omega
  rw [e]

theorem gate_rec_tile (c : Dev nD) (t : Fin cfg0.N) (h k : Fin 48) :
    iblk m c 6 t (ix2 h k) = V m c main_arg6 (ix2 h k) := by
  show V m c main_arg6 (((cfg0.win 6).blk t).view.emb (ix2 h k)) = _
  have e : ((cfg0.win 6).blk t).view.emb (ix2 h k) = ix2 h k := by
    obtain ⟨-, -, -, -, -, -, -, -, -, -, -, -, e0, e1, -⟩ := block_index t
    funext a; apply Fin.ext
    match a with
    | ⟨0, _⟩ => show win0_6.index t (0 : Fin 2) * 48 + 1 * h.val = h.val; omega
    | ⟨1, _⟩ => show win0_6.index t (1 : Fin 2) * 48 + 1 * k.val = k.val; omega
  rw [e]

theorem gate_bias_tile (c : Dev nD) (t : Fin cfg0.N) (h : Fin 48) :
    iblk m c 7 t (ix2 h (0 : Fin 1)) = V m c main_arg5 (ix2 h (0 : Fin 1)) := by
  show V m c main_arg5 (((cfg0.win 7).blk t).view.emb (ix2 h (0 : Fin 1))) = _
  have e : ((cfg0.win 7).blk t).view.emb (ix2 h (0 : Fin 1)) = ix2 h (0 : Fin 1) := by
    obtain ⟨-, -, -, -, -, -, -, -, -, -, -, -, -, -, e0, e1, -⟩ := block_index t
    funext a; apply Fin.ext
    match a with
    | ⟨0, _⟩ => show win0_7.index t (0 : Fin 2) * 48 + 1 * h.val = h.val; omega
    | ⟨1, _⟩ => show win0_7.index t (1 : Fin 2) * 1 + 1 * 0 = 0; omega
  rw [e]

/-- Element `(p, h)` of point `t`'s output tile is element `(4096 t + p, h)` of the array. -/
theorem output_tile (t : Fin cfg0.N) (p : Fin 4096) (h : Fin 48) :
    ((cfg0.win 8).blk t).view.emb (ix2 p h) = ix2 (row t p) h := by
  obtain ⟨-, -, -, -, -, -, -, -, -, -, -, -, -, -, -, -, e0, e1⟩ := block_index t
  funext a; apply Fin.ext
  match a with
  | ⟨0, _⟩ => show win0_8.index t (0 : Fin 2) * 4096 + 1 * p.val = t.val * 4096 + p.val; omega
  | ⟨1, _⟩ => show win0_8.index t (1 : Fin 2) * 48 + 1 * h.val = h.val; omega

/-! ## What a point writes back, and the whole array -/

/-- WHAT POINT `t` WRITES BACK is tile `t` of the cell update of the arrays the region finds. -/
theorem flushed_eq (c : Dev nD) (t : Fin cfg0.N) :
    (dats m 0 c).flushed 8 t = ((cfg0.win 8).blk t).view.read (Elt Ideal) (whole m c) := by
  rw [Value.flushed8]
  unfold out0_8
  rw [View.canon_unit_zero origin]
  simp only [View.ld_unit_zero (S := S24x4096) origin, View.ld_unit_zero (S := S4096x48) origin,
    View.ld_unit_zero (S := S48x48) origin, View.ld_unit_zero (S := S48x24) origin, View.ld_unit_zero (S := S48x1) origin]
  funext y
  obtain ⟨p, h, rfl⟩ : ∃ (p : Fin 4096) (h : Fin 48), y = ix2 p h := ⟨y 0, y 1, eq_ix2 y⟩
  show k0_pay1 (k0_pay4 (iblk m c 0 t) (iblk m c 1 t) (iblk m c 6 t) (iblk m c 5 t) (iblk m c 7 t))
      (k0_pay5 (iblk m c 0 t) (iblk m c 1 t) (iblk m c 3 t) (iblk m c 2 t) (iblk m c 4 t) (iblk m c 6 t) (iblk m c 5 t) (iblk m c 7 t)) (ix2 p h)
    = whole m c (((cfg0.win 8).blk t).view.emb (ix2 p h))
  refine (BlockCell.stored_at (iblk m c 0 t) (iblk m c 1 t) (iblk m c 2 t) (iblk m c 3 t) (iblk m c 4 t) (iblk m c 5 t) (iblk m c 6 t) (iblk m c 7 t) p h).trans ?_
  rw [output_tile t p h, funext (state_tile m c t p), funext (input_tile m c t p), state_tile m c t p h,
    funext (gate_rec_tile m c t h), funext (gate_in_tile m c t h), gate_bias_tile m c t h,
    funext (cand_rec_tile m c t h), funext (masked_tile m c t h), cand_bias_tile m c t h]
  rfl

/-- An index of the array is in point `t`'s output tile iff each coordinate is in the tile's range on its axis. -/
theorem mem_tile (t : Fin cfg0.N) (i : S524288x48.Idx) :
    i ∈ ((cfg0.win 8).blk t).view.set ↔ ∀ a : Fin 2, win0_8.index t a * S4096x48.size a ≤ (i a).val ∧ (i a).val < win0_8.index t a * S4096x48.size a + S4096x48.size a := by
  show i ∈ ((View.whole main_v3).slice (win0_8.rect t)).set ↔ _
  rw [View.set_slice_whole, Rect.mem_set_unit]
  exact Iff.rfl

/-- Every element lies in the tile of the point its row, divided by 4096, names. -/
theorem covered (i : S524288x48.Idx) : ∃ t : Fin cfg0.N, (cfg0.win 8).flush t = true ∧ i ∈ ((cfg0.win 8).blk t).view.set := by
  have hi0 : (i 0).val < 524288 := (i 0).isLt
  have hi1 : (i 1).val < 48 := (i 1).isLt
  have hq : (i 0).val / 4096 < 128 := by omega
  refine ⟨⟨(i 0).val / 4096, hq⟩, flush0_8 _, ?_⟩
  rw [mem_tile]
  obtain ⟨-, -, -, -, -, -, -, -, -, -, -, -, -, -, -, -, e0, e1⟩ := block_index ⟨(i 0).val / 4096, hq⟩
  have e0' : win0_8.index ⟨(i 0).val / 4096, hq⟩ (0 : Fin 2) = (i 0).val / 4096 := e0
  intro a
  match a with
  | ⟨0, _⟩ =>
    show win0_8.index ⟨(i 0).val / 4096, hq⟩ (0 : Fin 2) * 4096 ≤ (i 0).val ∧ (i 0).val < win0_8.index ⟨(i 0).val / 4096, hq⟩ (0 : Fin 2) * 4096 + 4096
    omega
  | ⟨1, _⟩ =>
    show win0_8.index ⟨(i 0).val / 4096, hq⟩ (1 : Fin 2) * 48 ≤ (i 1).val ∧ (i 1).val < win0_8.index ⟨(i 0).val / 4096, hq⟩ (1 : Fin 2) * 48 + 48
    omega

/-- THE ARRAY after the run: the cell update of the arrays the region finds, everywhere. -/
theorem final (c : Dev nD) : (dats m 0 c).arrAt 8 cfg0.N = whole m c :=
  (dats m 0 c).arrAt_eq_of_cover 8 (whole m c) (fun t _ => flushed_eq m c t) covered

end Cert.KernelValue

end
-- ==== Proof.KernelRun.lean ====
/-
  The kernel's run, stated over the memory it is launched from.

  The region finds every argument array as launched, and finds the candidate's input matrix as the host operations
  before it leave it: `P` with a 24 × 24 block of zeros scattered over rows 24 to 47. So the result array, the cell update
  of the arrays the region finds, is the cell update of the launch arguments with that masked `P`.
-/
import proofs.«129460_j90494960926876_1_alg».proof.Proof.KernelValue
import Idealize.ShloMosaic.Lib.StableHlo.Run

set_option maxRecDepth 16384

noncomputable section

namespace Cert.KernelRun

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

/-- `P` with rows 24 to 47 overwritten by zeros: a 24 × 24 zero block scattered at row 24. -/
abbrev masked (P : S48x24.Idx → EReal) : S48x24.Idx → EReal :=
  Host.scatter scatter_S48x24_S1_S24x24_01_n_0_0 (fun _ b => b) P
    (broadcastInDim S1 ![] bcast_S_S1 (constantI S_ 32 24#32))
    (broadcastInDim S24x24 ![] bcast_S_S24x24 (constant (F := Ideal) S_ .f32 0x00000000#32))

/-- The masked matrix the region finds is that scatter of the launch `P`. -/
theorem masked_found (c : Dev nD) :
    (V m c main_v2 : S48x24.Idx → EReal) = masked (m ((c : Thread nD τ).loc main_arg3)) := by
  dsimp only [Gen.V, Gen.hostOps0]; after_results

/-- The cell update of the arrays the region finds is the cell update of the launch arguments. -/
theorem whole_eq (c : Dev nD) :
    KernelValue.whole m c
      = Cell.result (m ((c : Thread nD τ).loc main_arg0)) (m ((c : Thread nD τ).loc main_arg1)) (m ((c : Thread nD τ).loc main_arg2))
          (masked (m ((c : Thread nD τ).loc main_arg3))) (m ((c : Thread nD τ).loc main_arg4)) (m ((c : Thread nD τ).loc main_arg5))
          (m ((c : Thread nD τ).loc main_arg6)) (m ((c : Thread nD τ).loc main_arg7)) := by
  show Cell.result (V m c main_arg0) (V m c main_arg1) (V m c main_arg2) (V m c main_v2) (V m c main_arg4) (V m c main_arg5)
    (V m c main_arg6) (V m c main_arg7) = _
  rw [V_main_arg0 m c, V_main_arg1 m c, V_main_arg2 m c, masked_found m c, V_main_arg4 m c, V_main_arg5 m c, V_main_arg6 m c,
    V_main_arg7 m c]

/-- THE KERNEL'S RUN: every weakly fair execution ends with the result array at the cell update of the launch arguments, and
    the arguments unchanged. -/
theorem run : θ_run defs (onTc (τ := τ) (main (F := Ideal))) ⟨m, fun _ => 0, ρ⟩ fun r => ∀ c : Dev nD,
      r.2.mem ((c : Thread nD τ).loc main_v3)
        = Cell.result (m ((c : Thread nD τ).loc main_arg0)) (m ((c : Thread nD τ).loc main_arg1)) (m ((c : Thread nD τ).loc main_arg2))
            (masked (m ((c : Thread nD τ).loc main_arg3))) (m ((c : Thread nD τ).loc main_arg4)) (m ((c : Thread nD τ).loc main_arg5))
            (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans ((KernelValue.final m c).trans (whole_eq m c)), (h c).2⟩)
    (Cert.KernelIdeal.Value.run_blocks m ρ)

end Cert.KernelRun

end
-- ==== Proof.lean ====
/-
  A gated recurrent cell over 524288 batch rows, 48 hidden units and 24 inputs: a batch-tiled kernel against the
  whole-array formula.

  For batch row `b` with state `r b : ℝ⁴⁸` and input `x b : ℝ²⁴`, hidden unit `h` becomes

      (1 − z) · r b h + z · σ(W h · r b + Pm h · x b + b_v h),      z = lo + span · σ(W_z h · r b + P_z h · x b + b_z h),

  σ the logistic function, `Pm` the matrix `P` with its lower 24 rows zeroed, `lo` and `span` two fixed f32 words
  (`Cell.update`, `Cell.result`). The reference evaluates this hidden-major on the whole arrays, with σ spelt
  `1 / (1 + e^(−y))` (`RefCell.result_eq`); the kernel evaluates it batch-major on 128 tiles of 4096 rows, with σ one
  operation and the matrix products taken against transposed parameters (`BlockCell.stored_at`), and its 128 output
  tiles partition the rows (`KernelValue.final`, `KernelRun.run`). On the extended reals the two differ only in the
  order of the factors inside each product, which commutes, and in the spelling of σ, which is one function; no
  finiteness of the inputs is used.

  The kernel's idealization rewrote nothing, so the word-level kernel and the idealized one are the same text and the
  preservation claim is empty. The three frames are the generated ones (the reference's: its run with the result
  dropped).
-/
import proofs.«129460_j90494960926876_1_alg».proof.Defs
import proofs.«129460_j90494960926876_1_alg».proof.Proof.Gen.Kernel
import proofs.«129460_j90494960926876_1_alg».proof.Proof.Gen.Kernel.Skeleton
import proofs.«129460_j90494960926876_1_alg».proof.Proof.Gen.Kernel.Launch
import proofs.«129460_j90494960926876_1_alg».proof.Proof.Gen.Kernel.Points
import proofs.«129460_j90494960926876_1_alg».proof.Proof.Gen.Kernel.Frame
import proofs.«129460_j90494960926876_1_alg».proof.Proof.Gen.KernelIdeal
import proofs.«129460_j90494960926876_1_alg».proof.Proof.Gen.KernelIdeal.Skeleton
import proofs.«129460_j90494960926876_1_alg».proof.Proof.Gen.KernelIdeal.Launch
import proofs.«129460_j90494960926876_1_alg».proof.Proof.Gen.KernelIdeal.Points
import proofs.«129460_j90494960926876_1_alg».proof.Proof.Gen.KernelIdeal.Frame
import proofs.«129460_j90494960926876_1_alg».proof.Proof.Gen.ReferenceIdeal
import proofs.«129460_j90494960926876_1_alg».proof.Proof.Gen.Pre_finite_inputs
import proofs.«129460_j90494960926876_1_alg».proof.Proof.Gen.KernelIdeal.Value
import proofs.«129460_j90494960926876_1_alg».proof.Proof.Gen.ReferenceIdeal.Run
import proofs.«129460_j90494960926876_1_alg».proof.Proof.Gen.ReferenceIdeal.Read
import proofs.«129460_j90494960926876_1_alg».proof.Proof.RefCell
import proofs.«129460_j90494960926876_1_alg».proof.Proof.KernelRun
import Idealize.ShloMosaic.Adequacy
import Idealize.ShloMosaic.Init

set_option maxRecDepth 16384

noncomputable section

namespace Cert.Proof

open Idealize.ShloMosaic Idealize.ShloMosaic.TcCoe Idealize.SL.Sem

/-- The masked input matrix is one term in both programs: the same scatter of the same zero block into `P`. -/
theorem masked_same (P : Cert.KernelIdeal.S48x24.Idx → EReal) : Cert.KernelRun.masked P = Cert.RefCell.masked P := rfl

theorem frame_kernel : Cert.frame_Kernel := fun m ρ _ => Cert.Kernel.Gen.frame m ρ
theorem frame_kernel_ideal : Cert.frame_KernelIdeal := fun m ρ _ => Cert.KernelIdeal.Gen.frame m ρ
theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on the eight arguments, both programs end with the result array at the cell update of the
    arguments: the kernel by its run, the reference by its run read back one stage at a time. -/
theorem algebraic : Cert.algebraic_KernelIdeal_ReferenceIdeal := by
  intro m ρ m' ρ' _ hagree
  refine ⟨_, Cert.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v35_eq, Cert.RefCell.result_eq, (hagree c).1, (hagree c).2.1, (hagree c).2.2.1,
    (hagree c).2.2.2.1, (hagree c).2.2.2.2.1, (hagree c).2.2.2.2.2.1, (hagree c).2.2.2.2.2.2.1, (hagree c).2.2.2.2.2.2.2]
  rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
